-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024x1024 .f32) (main_arg9 : FVec F S1024x1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S256x1024 : Shape := ⟨2, ![256, 1024]⟩
abbrev S1x1024 : Shape := ⟨2, ![1, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S256x1024, .f32⟩
  | .local _ .vmem, ⟨14, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S8192x1024.size a
  hwx0_11 : ∀ i : grid0.Coords, EltTy.bits .f32 = 32 ∨ (Rect.block (s := S8192x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x3072 : Shape := ⟨2, ![1024, 3072]⟩
abbrev S8192x3072 : Shape := ⟨2, ![8192, 3072]⟩
abbrev S1024x2048 : Shape := ⟨2, ![1024, 2048]⟩
abbrev S8192x2048 : Shape := ⟨2, ![8192, 2048]⟩
abbrev S1x1024 : Shape := ⟨2, ![1, 1024]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x3072, .f32⟩
  | .hbm, ⟨12, _⟩ => ⟨S8192x3072, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1024x2048, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  slices_S8192x3072_S8192x1024_0_0 : S8192x3072.Slices ![0, 0] S8192x1024
  slices_S8192x3072_S8192x1024_0_1024 : S8192x3072.Slices ![0, 1024] S8192x1024
  slices_S8192x3072_S8192x1024_0_2048 : S8192x3072.Slices ![0, 2048] S8192x1024
  concatenates_S1024x1024_S1024x1024_S1024x2048_d1 : Shape.Concatenates [S1024x1024, S1024x1024] S1024x2048 1
  slices_S8192x2048_S8192x1024_0_0 : S8192x2048.Slices ![0, 0] S8192x1024
  slices_S8192x2048_S8192x1024_0_1024 : S8192x2048.Slices ![0, 1024] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x3072_S8192x3072_1_0_0_1_n_n_wf : DotDims.WF S8192x1024 S1024x3072 S8192x3072 [1] [0] [0] [1] [] []
  dot_S8192x1024_S1024x2048_S8192x2048_1_0_0_1_n_n_wf : DotDims.WF S8192x1024 S1024x2048 S8192x2048 [1] [0] [0] [1] [] []
  dot_S8192x1024_S1024x1024_S8192x1024_1_0_0_1_n_n_wf : DotDims.WF S8192x1024 S1024x1024 S8192x1024 [1] [0] [0] [1] [] []

variable [Facts₀]

def dot_S8192x1024_S1024x3072_S8192x3072_1_0_0_1_n_n : DotDims S8192x1024 S1024x3072 S8192x3072 where
  lhsContracting := [1]
  rhsContracting := [0]
  lhsNonContracting := [0]
  rhsNonContracting := [1]
  lhsBatch := []
  rhsBatch := []
  wf := dot_S8192x1024_S1024x3072_S8192x3072_1_0_0_1_n_n_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.GruCell.lean ====
/-
  One step of a gated recurrent cell, read entry by entry on the extended reals.

  The cell takes a row `xr` of the input and a row `hr` of the state (1024 entries each), three pairs of
  1024 × 1024 weight matrices (one acting on the input row, one on the state row) and three bias vectors. With
  `σ t = 1 / (1 + e^(-t))` the logistic function,

    z q = σ (xr · Wiz[:, q] + hr · Uhz[:, q] + bz q)                     (update gate)
    r q = σ (xr · Wir[:, q] + hr · Uhr[:, q] + br q)                     (reset gate)
    n q = σ (xr · Win[:, q] + (r ∗ hr) · Uhn[:, q] + bn q)               (candidate; `∗` entry by entry)
    out q = (1 - z q) * hr q + z q * n q.

  Every sum runs over the one contracted coordinate in its natural order and is never regrouped, so nothing here needs
  the entries to be finite. Entry `q` of the output row depends on the two rows and on whole columns of the weights
  only: a block of rows worked on its own gives the same rows as the whole batch (`cell_congr`).

  Below the definition: the spellings of its ingredients that the two programs use, each read at an index. A matrix
  product accumulated into a zero splat is the row-by-column sum; a bias cast to one row and repeated down the rows reads
  the bias at the column; `1 / (1 + exp (-t))` spelt with a negation, an exponential, a sum and a quotient is the
  logistic function; and a matrix made by setting two or three 1024 × 1024 matrices side by side reads, at column
  `1024 · p + q`, the `p`-th of them at column `q`.
-/
import Idealize.ShloMosaic.Lib.StackMember
import Idealize.ShloMosaic.Lib.KernelVsHost
import Idealize.ShloMosaic.Lib.ValueLayout
import Idealize.ShloMosaic.Lib.IdealHost

noncomputable section

namespace GruCell

open Idealize.ShloMosaic Idealize.ShloMosaic.ValueIdx

/-- A 1024 × 1024 weight matrix. -/
abbrev Mat : Shape := ⟨2, ![1024, 1024]⟩
/-- A bias vector of 1024 entries. -/
abbrev Row : Shape := ⟨1, ![1024]⟩
/-- Three weight matrices side by side. -/
abbrev Mat3 : Shape := ⟨2, ![1024, 3072]⟩
/-- Two weight matrices side by side. -/
abbrev Mat2 : Shape := ⟨2, ![1024, 2048]⟩

/-- A row times column `q` of a matrix: `∑ k, a k * w (k, q)`. -/
def rowDot (a : Fin 1024 → EReal) (w : Mat.Idx → EReal) (q : Fin 1024) : EReal :=
  ∑ k : Fin 1024, a k * w (ix2 k q)

/-- A gate at column `q`: the logistic function of the input row through `wi`, plus the state row through `wh`,
    plus the bias. -/
def gate (xr hr : Fin 1024 → EReal) (wi wh : Mat.Idx → EReal) (b : Row.Idx → EReal) (q : Fin 1024) : EReal :=
  Ideal.logistic (rowDot xr wi q + rowDot hr wh q + b (ix1 q))

/-- The cell's output at column `q`: the state row and the candidate mixed by the update gate, the candidate
    reading the state row through the reset gate. -/
def cell (xr hr : Fin 1024 → EReal) (wiz uhz : Mat.Idx → EReal) (bz : Row.Idx → EReal)
    (wir uhr : Mat.Idx → EReal) (br : Row.Idx → EReal) (win uhn : Mat.Idx → EReal) (bn : Row.Idx → EReal)
    (q : Fin 1024) : EReal :=
  (1 - gate xr hr wiz uhz bz q) * hr q
    + gate xr hr wiz uhz bz q
      * Ideal.logistic (rowDot xr win q + rowDot (fun k => gate xr hr wir uhr br k * hr k) uhn q + bn (ix1 q))

/-- The output at a column is a function of the two rows, the weights, the biases and the column, and of nothing
    else: equal data give equal outputs. -/
theorem cell_congr {xr xr' hr hr' : Fin 1024 → EReal} {wiz wiz' uhz uhz' wir wir' uhr uhr' win win' uhn uhn' : Mat.Idx → EReal}
    {bz bz' br br' bn bn' : Row.Idx → EReal} {q q' : Fin 1024}
    (hx : ∀ k, xr k = xr' k) (hh : ∀ k, hr k = hr' k) (e1 : wiz = wiz') (e2 : uhz = uhz') (e3 : bz = bz')
    (e4 : wir = wir') (e5 : uhr = uhr') (e6 : br = br') (e7 : win = win') (e8 : uhn = uhn') (e9 : bn = bn')
    (hq : q = q') :
    cell xr hr wiz uhz bz wir uhr br win uhn bn q = cell xr' hr' wiz' uhz' bz' wir' uhr' br' win' uhn' bn' q' := by
  obtain rfl : xr = xr' := funext hx
  obtain rfl : hr = hr' := funext hh
  subst e1 e2 e3 e4 e5 e6 e7 e8 e9 hq
  rfl

/-- The batch: 8192 input rows and 8192 state rows. -/
abbrev Batch : Shape := ⟨2, ![8192, 1024]⟩

/-- The cell applied to every row of the batch: entry `(p, q)` of the result is the cell's output at column `q` for
    row `p` of the input and row `p` of the state. -/
def batch (x h : Batch.Idx → EReal) (wiz uhz : Mat.Idx → EReal) (bz : Row.Idx → EReal)
    (wir uhr : Mat.Idx → EReal) (br : Row.Idx → EReal) (win uhn : Mat.Idx → EReal) (bn : Row.Idx → EReal) :
    Batch.Idx → EReal :=
  fun i => cell (fun k => x (ix2 (i 0 : Fin 8192) k)) (fun k => h (ix2 (i 0 : Fin 8192) k)) wiz uhz bz wir uhr br win uhn bn
    (i 1 : Fin 1024)

/-! ## The ingredients as a kernel spells them -/

/-- A block of `R` rows times a weight matrix, accumulated into a zero splat, read at `(r, q)`: row `r` of the block
    times column `q`. -/
theorem matmul_rows_apply {R : Nat} {φ₁ φ₂ : FTy} (prec : Option ContractPrecision)
    (x : FVec Ideal ⟨2, ![R, 1024]⟩ φ₁) (w : FVec Ideal Mat φ₂) (r : Fin R) (q : Fin 1024) :
    matmul (DotDims.plain R 1024 1024) prec x w (constant ⟨2, ![R, 1024]⟩ .f32 0x00000000#32) (ix2 r q)
      = rowDot (fun k => x (ix2 r k)) w q := by
  rw [matmul_zero_eq_dotGeneral, StackMember.dotGeneral_plain_apply]
  rfl

/-- A bias cast to one row and that row repeated down `R` rows, read at `(r, q)`: the bias at `q`. -/
theorem bias_rows_apply {R : Nat} {α : Type} (b : Row.Idx → α) (h1 : Row.ShapeCasts ⟨2, ![1, 1024]⟩)
    (h2 : (⟨2, ![1, 1024]⟩ : Shape).Broadcasts ⟨2, ![R, 1024]⟩) (r : Fin R) (q : Fin 1024) :
    broadcastTo ⟨2, ![R, 1024]⟩ (shapeCast ⟨2, ![1, 1024]⟩ b h1) h2 (ix2 r q) = b (ix1 q) := by
  rw [broadcastTo_1b_ab_apply, shapeCast_a_1a_apply]

/-! ## The ingredients as a host program spells them -/

/-- `R` rows times a matrix of `C` columns on the host, read at `(p, j)`: the sum over the contracted coordinate. -/
theorem dot_rows_apply {R C : Nat} {φ₁ φ₂ : FTy} (prec : Option ContractPrecision)
    (x : FVec Ideal ⟨2, ![R, 1024]⟩ φ₁) (w : FVec Ideal ⟨2, ![1024, C]⟩ φ₂) (p : Fin R) (j : Fin C) :
    Host.dotGeneral (DotDims.plain R 1024 C) prec x w (ix2 p j) = ∑ k : Fin 1024, x (ix2 p k) * w (ix2 k j) :=
  StackMember.dotGeneral_plain_apply prec x w p j

/-- `1 / (1 + exp (-t))`, spelt with the host's negation, exponential, sum and quotient and the word of `1.0`, is
    the logistic function of `t`, at the infinities too. -/
theorem logistic_expanded (t : Ideal .f32) :
    FloatOps.hostDivf (FloatOps.ofBits .f32 0x3F800000#32)
        (FloatOps.addf (FloatOps.ofBits .f32 0x3F800000#32) (FloatOps.hostUnary .exp (FloatOps.hostNegf t)))
      = Ideal.logistic t := by
  rw [Ideal.ofBits_def, Ideal.ofBits_one_f32]
  rfl

/-! ## Matrices set side by side, read at an index -/

section SideBySide
variable {α : Type}

/-- Three matrices side by side, at a column in the first: the first matrix there. -/
theorem beside3_fst (h : Shape.Concatenates [Mat, Mat, Mat] Mat3 1) (w0 w1 w2 : Mat.Idx → α) (j : Mat3.Idx)
    (k q : Fin 1024) (hk : k.val = (j 0).val) (hq : 0 + q.val = (j 1).val) :
    concatenate Mat3 1 [⟨Mat, w0⟩, ⟨Mat, w1⟩, ⟨Mat, w2⟩] h j = w0 (ix2 k q) :=
  concatenate_apply_piece 1 [⟨Mat, w0⟩, ⟨Mat, w1⟩, ⟨Mat, w2⟩] h j 0 (by simp) Mat w0 rfl rfl 0 rfl (ix2 k q)
    (fun b hb => by
      match b, hb with
      | ⟨0, _⟩, _ => exact hk
      | ⟨1, _⟩, hb => exact absurd rfl hb) hq

/-- Three matrices side by side, at a column in the second: the second matrix, 1024 columns to the left. -/
theorem beside3_snd (h : Shape.Concatenates [Mat, Mat, Mat] Mat3 1) (w0 w1 w2 : Mat.Idx → α) (j : Mat3.Idx)
    (k q : Fin 1024) (hk : k.val = (j 0).val) (hq : 1024 + q.val = (j 1).val) :
    concatenate Mat3 1 [⟨Mat, w0⟩, ⟨Mat, w1⟩, ⟨Mat, w2⟩] h j = w1 (ix2 k q) :=
  concatenate_apply_piece 1 [⟨Mat, w0⟩, ⟨Mat, w1⟩, ⟨Mat, w2⟩] h j 1 (by simp) Mat w1 rfl rfl 1024 rfl (ix2 k q)
    (fun b hb => by
      match b, hb with
      | ⟨0, _⟩, _ => exact hk
      | ⟨1, _⟩, hb => exact absurd rfl hb) hq

/-- Three matrices side by side, at a column in the third: the third matrix, 2048 columns to the left. -/
theorem beside3_trd (h : Shape.Concatenates [Mat, Mat, Mat] Mat3 1) (w0 w1 w2 : Mat.Idx → α) (j : Mat3.Idx)
    (k q : Fin 1024) (hk : k.val = (j 0).val) (hq : 2048 + q.val = (j 1).val) :
    concatenate Mat3 1 [⟨Mat, w0⟩, ⟨Mat, w1⟩, ⟨Mat, w2⟩] h j = w2 (ix2 k q) :=
  concatenate_apply_piece 1 [⟨Mat, w0⟩, ⟨Mat, w1⟩, ⟨Mat, w2⟩] h j 2 (by simp) Mat w2 rfl rfl 2048 rfl (ix2 k q)
    (fun b hb => by
      match b, hb with
      | ⟨0, _⟩, _ => exact hk
      | ⟨1, _⟩, hb => exact absurd rfl hb) hq

/-- Two matrices side by side, at a column in the first: the first matrix there. -/
theorem beside2_fst (h : Shape.Concatenates [Mat, Mat] Mat2 1) (w0 w1 : Mat.Idx → α) (j : Mat2.Idx)
    (k q : Fin 1024) (hk : k.val = (j 0).val) (hq : 0 + q.val = (j 1).val) :
    concatenate Mat2 1 [⟨Mat, w0⟩, ⟨Mat, w1⟩] h j = w0 (ix2 k q) :=
  concatenate_apply_piece 1 [⟨Mat, w0⟩, ⟨Mat, w1⟩] h j 0 (by simp) Mat w0 rfl rfl 0 rfl (ix2 k q)
    (fun b hb => by
      match b, hb with
      | ⟨0, _⟩, _ => exact hk
      | ⟨1, _⟩, hb => exact absurd rfl hb) hq

/-- Two matrices side by side, at a column in the second: the second matrix, 1024 columns to the left. -/
theorem beside2_snd (h : Shape.Concatenates [Mat, Mat] Mat2 1) (w0 w1 : Mat.Idx → α) (j : Mat2.Idx)
    (k q : Fin 1024) (hk : k.val = (j 0).val) (hq : 1024 + q.val = (j 1).val) :
    concatenate Mat2 1 [⟨Mat, w0⟩, ⟨Mat, w1⟩] h j = w1 (ix2 k q) :=
  concatenate_apply_piece 1 [⟨Mat, w0⟩, ⟨Mat, w1⟩] h j 1 (by simp) Mat w1 rfl rfl 1024 rfl (ix2 k q)
    (fun b hb => by
      match b, hb with
      | ⟨0, _⟩, _ => exact hk
      | ⟨1, _⟩, hb => exact absurd rfl hb) hq

end SideBySide

end GruCell

end
-- ==== Proof.KernelRows.lean ====
/-
  The kernel's result array, entry by entry: the gated recurrent cell applied to every row of the batch.

  The kernel walks the batch in 32 blocks of 256 rows. At a block it holds 256 rows of the input and of the state and
  the whole of every weight matrix and bias, and it stores 256 rows of the result. Entry `(r, q)` of what it stores is
  the cell's output at column `q` for row `r` of the two blocks: each of its six matrix products is accumulated into
  a zero splat, so it is the plain row-by-column sum; a change of float format is the identity on extended reals; each
  bias is cast to one row and repeated down the rows. Row `r` of block `t` is row `256 t + r` of the batch, the cell's
  output for a row depends on that row alone, and the 32 blocks cover the batch: the result array ends holding the cell
  applied to every row.
-/
import proofs.«138151_j10952166604829_1_alg».proof.Proof.Gen.KernelIdeal.Value
import proofs.«138151_j10952166604829_1_alg».proof.Proof.GruCell

set_option maxRecDepth 16384

noncomputable section

namespace Cert.KernelIdeal.Rows

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry of a block -/

/-- The input block through the candidate's input-side matrix, at `(r, q)`: row `r` times column `q`. -/
theorem inCand_apply (v0 : Vec Ideal S256x1024 .f32) (w : Vec Ideal S1024x1024 .f32) (r : Fin 256) (q : Fin 1024) :
    k0_pay4 v0 w (ix2 r q) = GruCell.rowDot (fun k => v0 (ix2 r k)) w q :=
  GruCell.matmul_rows_apply none (truncf (φ := .f32) .bf16 v0 bitsLt_bf16_f32) (truncf (φ := .f32) .bf16 w bitsLt_bf16_f32) r q

/-- The update gate's payload at `(r, q)`: the gate of rows `r` of the two blocks. -/
theorem update_apply (v0 v1 : Vec Ideal S256x1024 .f32) (wi wh : Vec Ideal S1024x1024 .f32) (b : Vec Ideal S1024 .f32)
    (r : Fin 256) (q : Fin 1024) :
    k0_pay5 v0 v1 wi wh b (ix2 r q) = GruCell.gate (fun k => v0 (ix2 r k)) (fun k => v1 (ix2 r k)) wi wh b q :=
  congrArg Ideal.logistic (congrArg₂ (· + ·) (congrArg₂ (· + ·)
    (GruCell.matmul_rows_apply none (truncf (φ := .f32) .bf16 v0 bitsLt_bf16_f32) (truncf (φ := .f32) .bf16 wi bitsLt_bf16_f32) r q)
    (GruCell.matmul_rows_apply none (truncf (φ := .f32) .bf16 v1 bitsLt_bf16_f32) (truncf (φ := .f32) .bf16 wh bitsLt_bf16_f32) r q))
    (GruCell.bias_rows_apply b shapeCasts_S1024_S1x1024 broadcasts_S1x1024_S256x1024 r q))

/-- The reset gate times the state block, at `(r, q)`. -/
theorem gatedState_apply (v0 v1 : Vec Ideal S256x1024 .f32) (wi wh : Vec Ideal S1024x1024 .f32) (b : Vec Ideal S1024 .f32)
    (r : Fin 256) (q : Fin 1024) :
    k0_pay6 v0 v1 wi wh b (ix2 r q)
      = GruCell.gate (fun k => v0 (ix2 r k)) (fun k => v1 (ix2 r k)) wi wh b q * v1 (ix2 r q) :=
  congrArg (· * v1 (ix2 r q)) (congrArg Ideal.logistic (congrArg₂ (· + ·) (congrArg₂ (· + ·)
    (GruCell.matmul_rows_apply none (truncf (φ := .f32) .bf16 v0 bitsLt_bf16_f32) (truncf (φ := .f32) .bf16 wi bitsLt_bf16_f32) r q)
    (GruCell.matmul_rows_apply none (truncf (φ := .f32) .bf16 v1 bitsLt_bf16_f32) (truncf (φ := .f32) .bf16 wh bitsLt_bf16_f32) r q))
    (GruCell.bias_rows_apply b shapeCasts_S1024_S1x1024 broadcasts_S1x1024_S256x1024 r q)))

/-- The stored value at `(r, q)`, from the state block, the candidate's input-side product, its bias, the update
    gate, the gated state and the candidate's state-side matrix: the mix of the state and the candidate. -/
theorem mix_apply (v1 : Vec Ideal S256x1024 .f32) (xn : FVec Ideal S256x1024 .f32) (bn : Vec Ideal S1024 .f32)
    (z : FVec Ideal S256x1024 .f32) (rh : FVec Ideal S256x1024 .bf16) (uhn : Vec Ideal S1024x1024 .f32)
    (r : Fin 256) (q : Fin 1024) :
    k0_pay1 v1 xn bn z rh uhn (ix2 r q)
      = (1 - z (ix2 r q)) * v1 (ix2 r q)
        + z (ix2 r q) * Ideal.logistic (xn (ix2 r q) + GruCell.rowDot (fun k => rh (ix2 r k)) uhn q + bn (ix1 q)) := by
  have e1 := GruCell.matmul_rows_apply none rh (truncf (φ := .f32) .bf16 uhn bitsLt_bf16_f32) r q
  have e3 := GruCell.bias_rows_apply bn shapeCasts_S1024_S1x1024 broadcasts_S1x1024_S256x1024 r q
  have e0 : Ideal.ofBits .f32 0x3F800000#32 = 1 := Ideal.ofBits_one_f32
  refine Eq.trans (b := (Ideal.ofBits .f32 0x3F800000#32 - z (ix2 r q)) * v1 (ix2 r q)
    + z (ix2 r q) * Ideal.logistic (xn (ix2 r q) + GruCell.rowDot (fun k => rh (ix2 r k)) uhn q + bn (ix1 q))) ?_ (by rw [e0])
  exact congrArg (fun t => (Ideal.ofBits .f32 0x3F800000#32 - z (ix2 r q)) * v1 (ix2 r q) + z (ix2 r q) * Ideal.logistic t)
    (congrArg₂ (· + ·) (congrArg (xn (ix2 r q) + ·) e1) e3)

/-- THE BODY at `(r, q)`: what the kernel stores, from the eleven blocks it loads, is the cell's output at column `q`
    for rows `r` of the input block and of the state block. -/
theorem body_apply (x0 x1 : Vec Ideal S256x1024 .f32) (w2 w3 w4 w5 w6 w7 : Vec Ideal S1024x1024 .f32)
    (b8 b9 b10 : Vec Ideal S1024 .f32) (r : Fin 256) (q : Fin 1024) :
    k0_pay1 x1 (k0_pay4 x0 w4) b10 (k0_pay5 x0 x1 w2 w5 b8) (k0_pay6 x0 x1 w3 w6 b9) w7 (ix2 r q)
      = GruCell.cell (fun k => x0 (ix2 r k)) (fun k => x1 (ix2 r k)) w2 w5 b8 w3 w6 b9 w4 w7 b10 q := by
  have e6 : (fun k => k0_pay6 x0 x1 w3 w6 b9 (ix2 r k))
      = fun k => GruCell.gate (fun k' => x0 (ix2 r k')) (fun k' => x1 (ix2 r k')) w3 w6 b9 k * x1 (ix2 r k) :=
    funext fun k => gatedState_apply x0 x1 w3 w6 b9 r k
  rw [mix_apply, inCand_apply, update_apply, e6]
  rfl

/-! ## The windows' blocks as pieces of the argument arrays -/

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 32 grid points: the input, the state and the result move one block of
    rows per point and never sideways. -/
theorem idx_moving : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The weight matrices' windows stay at block (0, 0) … -/
theorem idx_mats : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- … and the biases' at block 0. -/
theorem idx_biases : ∀ t : Fin cfg0.N,
    win0_8.index t (0 : Fin 1) = 0 ∧ win0_9.index t (0 : Fin 1) = 0 ∧ win0_10.index t (0 : Fin 1) = 0 :=
  (by decide +kernel : ∀ t : Fin grid0.N, _)

/-- Entry `y` of the input block at point `t` is the input at row `256 t + y 0`, column `y 1`. -/
theorem inputBlock_apply (c : Dev nD) (t : Fin cfg0.N) (y : S256x1024.Idx) (i : S8192x1024.Idx)
    (h0 : (i 0).val = 256 * t.val + (y 0).val) (h1 : (i 1).val = (y 1).val) :
    (iblk m c 0 t : Vec Ideal S256x1024 .f32) y = (V m c main_arg0 : S8192x1024.Idx → Elt Ideal .f32) i := by
  obtain ⟨e0, e1, -⟩ := idx_moving t
  unfold iblk
  rw [View.read_apply]
  show V m c main_arg0 _ = V m c main_arg0 i
  refine congrArg (V m c main_arg0) (funext fun a => Fin.ext ?_)
  match a with
  | ⟨0, _⟩ => show win0_0.index t 0 * 256 + 1 * (y 0).val = (i 0).val; rw [e0, h0]; omega
  | ⟨1, _⟩ => show win0_0.index t 1 * 1024 + 1 * (y 1).val = (i 1).val; rw [e1, h1]; omega

/-- Entry `y` of the state block at point `t` is the state at row `256 t + y 0`, column `y 1`. -/
theorem stateBlock_apply (c : Dev nD) (t : Fin cfg0.N) (y : S256x1024.Idx) (i : S8192x1024.Idx)
    (h0 : (i 0).val = 256 * t.val + (y 0).val) (h1 : (i 1).val = (y 1).val) :
    (iblk m c 1 t : Vec Ideal S256x1024 .f32) y = (V m c main_arg1 : S8192x1024.Idx → Elt Ideal .f32) i := by
  obtain ⟨-, -, e0, e1, -⟩ := idx_moving t
  unfold iblk
  rw [View.read_apply]
  show V m c main_arg1 _ = V m c main_arg1 i
  refine congrArg (V m c main_arg1) (funext fun a => Fin.ext ?_)
  match a with
  | ⟨0, _⟩ => show win0_1.index t 0 * 256 + 1 * (y 0).val = (i 0).val; rw [e0, h0]; omega
  | ⟨1, _⟩ => show win0_1.index t 1 * 1024 + 1 * (y 1).val = (i 1).val; rw [e1, h1]; omega

/-- The update gate's input-side matrix is held whole at every point. -/
theorem mat2_whole (c : Dev nD) (t : Fin cfg0.N) :
    (iblk m c 2 t : Vec Ideal S1024x1024 .f32) = (V m c main_arg2 : S1024x1024.Idx → Elt Ideal .f32) := by
  obtain ⟨⟨e0, e1⟩, -⟩ := idx_mats t
  funext y
  unfold iblk
  rw [View.read_apply]
  show V m c main_arg2 _ = V m c main_arg2 y
  refine congrArg (V m c main_arg2) (funext fun a => Fin.ext ?_)
  match a with
  | ⟨0, _⟩ => show win0_2.index t 0 * 1024 + 1 * (y 0).val = (y 0).val; rw [e0]; omega
  | ⟨1, _⟩ => show win0_2.index t 1 * 1024 + 1 * (y 1).val = (y 1).val; rw [e1]; omega

/-- The reset gate's input-side matrix is held whole at every point. -/
theorem mat3_whole (c : Dev nD) (t : Fin cfg0.N) :
    (iblk m c 3 t : Vec Ideal S1024x1024 .f32) = (V m c main_arg5 : S1024x1024.Idx → Elt Ideal .f32) := by
  obtain ⟨-, ⟨e0, e1⟩, -⟩ := idx_mats t
  funext y
  unfold iblk
  rw [View.read_apply]
  show V m c main_arg5 _ = V m c main_arg5 y
  refine congrArg (V m c main_arg5) (funext fun a => Fin.ext ?_)
  match a with
  | ⟨0, _⟩ => show win0_3.index t 0 * 1024 + 1 * (y 0).val = (y 0).val; rw [e0]; omega
  | ⟨1, _⟩ => show win0_3.index t 1 * 1024 + 1 * (y 1).val = (y 1).val; rw [e1]; omega

/-- The candidate's input-side matrix is held whole at every point. -/
theorem mat4_whole (c : Dev nD) (t : Fin cfg0.N) :
    (iblk m c 4 t : Vec Ideal S1024x1024 .f32) = (V m c main_arg8 : S1024x1024.Idx → Elt Ideal .f32) := by
  obtain ⟨-, -, ⟨e0, e1⟩, -⟩ := idx_mats t
  funext y
  unfold iblk
  rw [View.read_apply]
  show V m c main_arg8 _ = V m c main_arg8 y
  refine congrArg (V m c main_arg8) (funext fun a => Fin.ext ?_)
  match a with
  | ⟨0, _⟩ => show win0_4.index t 0 * 1024 + 1 * (y 0).val = (y 0).val; rw [e0]; omega
  | ⟨1, _⟩ => show win0_4.index t 1 * 1024 + 1 * (y 1).val = (y 1).val; rw [e1]; omega

/-- The update gate's state-side matrix is held whole at every point. -/
theorem mat5_whole (c : Dev nD) (t : Fin cfg0.N) :
    (iblk m c 5 t : Vec Ideal S1024x1024 .f32) = (V m c main_arg3 : S1024x1024.Idx → Elt Ideal .f32) := by
  obtain ⟨-, -, -, ⟨e0, e1⟩, -⟩ := idx_mats t
  funext y
  unfold iblk
  rw [View.read_apply]
  show V m c main_arg3 _ = V m c main_arg3 y
  refine congrArg (V m c main_arg3) (funext fun a => Fin.ext ?_)
  match a with
  | ⟨0, _⟩ => show win0_5.index t 0 * 1024 + 1 * (y 0).val = (y 0).val; rw [e0]; omega
  | ⟨1, _⟩ => show win0_5.index t 1 * 1024 + 1 * (y 1).val = (y 1).val; rw [e1]; omega

/-- The reset gate's state-side matrix is held whole at every point. -/
theorem mat6_whole (c : Dev nD) (t : Fin cfg0.N) :
    (iblk m c 6 t : Vec Ideal S1024x1024 .f32) = (V m c main_arg6 : S1024x1024.Idx → Elt Ideal .f32) := by
  obtain ⟨-, -, -, -, ⟨e0, e1⟩, -⟩ := idx_mats t
  funext y
  unfold iblk
  rw [View.read_apply]
  show V m c main_arg6 _ = V m c main_arg6 y
  refine congrArg (V m c main_arg6) (funext fun a => Fin.ext ?_)
  match a with
  | ⟨0, _⟩ => show win0_6.index t 0 * 1024 + 1 * (y 0).val = (y 0).val; rw [e0]; omega
  | ⟨1, _⟩ => show win0_6.index t 1 * 1024 + 1 * (y 1).val = (y 1).val; rw [e1]; omega

/-- The candidate's state-side matrix is held whole at every point. -/
theorem mat7_whole (c : Dev nD) (t : Fin cfg0.N) :
    (iblk m c 7 t : Vec Ideal S1024x1024 .f32) = (V m c main_arg9 : S1024x1024.Idx → Elt Ideal .f32) := by
  obtain ⟨-, -, -, -, -, e0, e1⟩ := idx_mats t
  funext y
  unfold iblk
  rw [View.read_apply]
  show V m c main_arg9 _ = V m c main_arg9 y
  refine congrArg (V m c main_arg9) (funext fun a => Fin.ext ?_)
  match a with
  | ⟨0, _⟩ => show win0_7.index t 0 * 1024 + 1 * (y 0).val = (y 0).val; rw [e0]; omega
  | ⟨1, _⟩ => show win0_7.index t 1 * 1024 + 1 * (y 1).val = (y 1).val; rw [e1]; omega

/-- The update gate's bias is held whole at every point. -/
theorem bias8_whole (c : Dev nD) (t : Fin cfg0.N) :
    (iblk m c 8 t : Vec Ideal S1024 .f32) = (V m c main_arg4 : S1024.Idx → Elt Ideal .f32) := by
  obtain ⟨e0, -⟩ := idx_biases t
  funext y
  unfold iblk
  rw [View.read_apply]
  show V m c main_arg4 _ = V m c main_arg4 y
  refine congrArg (V m c main_arg4) (funext fun a => Fin.ext ?_)
  match a with
  | ⟨0, _⟩ => show win0_8.index t 0 * 1024 + 1 * (y 0).val = (y 0).val; rw [e0]; omega

/-- The reset gate's bias is held whole at every point. -/
theorem bias9_whole (c : Dev nD) (t : Fin cfg0.N) :
    (iblk m c 9 t : Vec Ideal S1024 .f32) = (V m c main_arg7 : S1024.Idx → Elt Ideal .f32) := by
  obtain ⟨-, e0, -⟩ := idx_biases t
  funext y
  unfold iblk
  rw [View.read_apply]
  show V m c main_arg7 _ = V m c main_arg7 y
  refine congrArg (V m c main_arg7) (funext fun a => Fin.ext ?_)
  match a with
  | ⟨0, _⟩ => show win0_9.index t 0 * 1024 + 1 * (y 0).val = (y 0).val; rw [e0]; omega

/-- The candidate's bias is held whole at every point. -/
theorem bias10_whole (c : Dev nD) (t : Fin cfg0.N) :
    (iblk m c 10 t : Vec Ideal S1024 .f32) = (V m c main_arg10 : S1024.Idx → Elt Ideal .f32) := by
  obtain ⟨-, -, e0⟩ := idx_biases t
  funext y
  unfold iblk
  rw [View.read_apply]
  show V m c main_arg10 _ = V m c main_arg10 y
  refine congrArg (V m c main_arg10) (funext fun a => Fin.ext ?_)
  match a with
  | ⟨0, _⟩ => show win0_10.index t 0 * 1024 + 1 * (y 0).val = (y 0).val; rw [e0]; omega

/-! ## From the blocks to the array -/

/-- The cell applied to every row of the batch of the argument arrays as the region finds them. -/
abbrev result (c : Dev nD) : Buf (Elt Ideal) ((c : Thread nD τ).loc main_v0) :=
  GruCell.batch (V m c main_arg0) (V m c main_arg1) (V m c main_arg2) (V m c main_arg3) (V m c main_arg4)
    (V m c main_arg5) (V m c main_arg6) (V m c main_arg7) (V m c main_arg8) (V m c main_arg9) (V m c main_arg10)

/-- WHAT POINT `t` WRITES BACK is rows `256 t … 256 t + 255` of `result`. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz2]
  simp only [View.ld_unit_zero (S := S256x1024) hz2, View.ld_unit_zero (S := S1024x1024) hz2, View.ld_unit_zero (S := S1024) hz1]
  obtain ⟨-, -, -, -, e0, e1⟩ := idx_moving t
  funext j
  obtain ⟨r, q, rfl⟩ : ∃ (r : Fin 256) (q : Fin 1024), j = ix2 r q := ⟨j 0, j 1, eq_ix2 j⟩
  rw [View.read_apply]
  refine (body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) r q).trans ?_
  have hr : ((((cfg0.win 11).blk t).view.emb (ix2 r q)) 0).val = 256 * t.val + r.val := by
    show win0_11.index t 0 * 256 + 1 * r.val = _
    rw [e0]; omega
  have hq : ((((cfg0.win 11).blk t).view.emb (ix2 r q)) 1).val = q.val := by
    show win0_11.index t 1 * 1024 + 1 * q.val = _
    rw [e1]; omega
  refine GruCell.cell_congr (fun k => inputBlock_apply m c t (ix2 r k) _ hr rfl) (fun k => stateBlock_apply m c t (ix2 r k) _ hr rfl)
    (mat2_whole m c t) (mat5_whole m c t) (bias8_whole m c t) (mat3_whole m c t) (mat6_whole m c t) (bias9_whole m c t)
    (mat4_whole m c t) (mat7_whole m c t) (bias10_whole m c t) (Fin.ext hq.symm)

/-- Every row of the batch lies in some point's block: row `p` in that of point `p / 256`. -/
theorem covered (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 32 := N_0
  have ht : (i 0).val / 256 < cfg0.N := by rw [hN]; omega
  obtain ⟨-, -, -, -, e0, e1⟩ := idx_moving ⟨(i 0).val / 256, ht⟩
  refine ⟨⟨(i 0).val / 256, ht⟩, flush0_11 _, ?_⟩
  show i ∈ ((View.whole main_v0).slice (win0_11.rect ⟨(i 0).val / 256, ht⟩)).set
  rw [View.set_slice_whole, Rect.mem_set_unit]
  intro a
  match a with
  | ⟨0, _⟩ =>
    show win0_11.index ⟨(i 0).val / 256, ht⟩ 0 * 256 ≤ (i 0).val ∧ (i 0).val < win0_11.index ⟨(i 0).val / 256, ht⟩ 0 * 256 + 256
    rw [e0]
    show (i 0).val / 256 * 256 ≤ (i 0).val ∧ (i 0).val < (i 0).val / 256 * 256 + 256
    omega
  | ⟨1, _⟩ =>
    show win0_11.index ⟨(i 0).val / 256, ht⟩ 1 * 1024 ≤ (i 1).val ∧ (i 1).val < win0_11.index ⟨(i 0).val / 256, ht⟩ 1 * 1024 + 1024
    rw [e1]
    omega

/-- THE ARRAY after the run: the cell applied to every row of the batch. -/
theorem final (c : Dev nD) : (dats m 0 c).arrAt 11 cfg0.N = result m c :=
  (dats m 0 c).arrAt_eq_of_cover 11 (result m c) (fun t _ => flushed_eq m c t) covered

/-- The kernel's run, read: the result array at the cell of every row, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Rows

end
-- ==== Proof.ReferenceRows.lean ====
/-
  The reference's result array, entry by entry: the gated recurrent cell applied to every row of the batch.

  The reference multiplies the input batch once by the three input-side weight matrices set side by side and cuts the
  product into three column bands, and likewise the state batch by two state-side matrices. Entry `(p, q)` of a band
  is a sum over the contracted coordinate `k` of `x (p, k)` times the side-by-side matrix at `(k, 1024 · band + q)`,
  which is that band's own matrix at `(k, q)`: the band is the product by its own matrix. From there on the reference
  computes the gates, the candidate and the mix entry by entry, spelling the logistic function as
  `1 / (1 + exp (-t))`. No sum is regrouped and no product distributed, so nothing here needs the entries to be finite.
-/
import proofs.«138151_j10952166604829_1_alg».proof.Proof.Gen.ReferenceIdeal.Read
import proofs.«138151_j10952166604829_1_alg».proof.Proof.GruCell

noncomputable section

namespace Cert.ReferenceIdeal.Rows

open Cert.ReferenceIdeal Cert.ReferenceIdeal.Gen Cert.ReferenceIdeal.Read
open Idealize.ShloMosaic Idealize.ShloMosaic.TcCoe Idealize.SL.Sem Idealize.ShloMosaic.ValueIdx

/-- A batch of 8192 rows of 1024 extended reals. -/
abbrev Bat := (⟨S8192x1024, .f32⟩ : BufTy).Contents (Elt Ideal)
/-- A 1024 × 1024 weight matrix of extended reals. -/
abbrev Wt := (⟨S1024x1024, .f32⟩ : BufTy).Contents (Elt Ideal)
/-- A bias vector of 1024 extended reals. -/
abbrev Bias := (⟨S1024, .f32⟩ : BufTy).Contents (Elt Ideal)

/-! ## The five projections: a band of a product by matrices side by side is the product by the band's matrix -/

/-- The first band of the input-side product: row `p` of the input times column `q` of the first matrix. -/
theorem inBand0_apply (x0 : Bat) (x2 x5 x8 : Wt) (i : S8192x1024.Idx) :
    val_main_v2 (F := Ideal) x0 x2 x5 x8 i = GruCell.rowDot (fun k => x0 (ix2 (i 0 : Fin 8192) k)) x2 (i 1 : Fin 1024) := by
  rw [val_main_v2_apply, val_main_v1_apply]
  unfold GruCell.rowDot
  refine Finset.sum_congr rfl fun k _ => ?_
  refine congrArg₂ (· * ·) (congrArg x0 (funext fun a => Fin.ext ?_)) ?_
  · match a with
    | ⟨0, _⟩ => rfl
    | ⟨1, _⟩ => rfl
  · exact GruCell.beside3_fst _ x2 x5 x8 _ k (i 1 : Fin 1024) rfl (Nat.zero_add _)

/-- The second band of the input-side product: the second matrix. -/
theorem inBand1_apply (x0 : Bat) (x2 x5 x8 : Wt) (i : S8192x1024.Idx) :
    val_main_v3 (F := Ideal) x0 x2 x5 x8 i = GruCell.rowDot (fun k => x0 (ix2 (i 0 : Fin 8192) k)) x5 (i 1 : Fin 1024) := by
  rw [val_main_v3_apply, val_main_v1_apply]
  unfold GruCell.rowDot
  refine Finset.sum_congr rfl fun k _ => ?_
  refine congrArg₂ (· * ·) (congrArg x0 (funext fun a => Fin.ext ?_)) ?_
  · match a with
    | ⟨0, _⟩ => rfl
    | ⟨1, _⟩ => rfl
  · exact GruCell.beside3_snd _ x2 x5 x8 _ k (i 1 : Fin 1024) rfl rfl

/-- The third band of the input-side product: the third matrix. -/
theorem inBand2_apply (x0 : Bat) (x2 x5 x8 : Wt) (i : S8192x1024.Idx) :
    val_main_v4 (F := Ideal) x0 x2 x5 x8 i = GruCell.rowDot (fun k => x0 (ix2 (i 0 : Fin 8192) k)) x8 (i 1 : Fin 1024) := by
  rw [val_main_v4_apply, val_main_v1_apply]
  unfold GruCell.rowDot
  refine Finset.sum_congr rfl fun k _ => ?_
  refine congrArg₂ (· * ·) (congrArg x0 (funext fun a => Fin.ext ?_)) ?_
  · match a with
    | ⟨0, _⟩ => rfl
    | ⟨1, _⟩ => rfl
  · exact GruCell.beside3_trd _ x2 x5 x8 _ k (i 1 : Fin 1024) rfl rfl

/-- The first band of the state-side product: row `p` of the state times column `q` of the first matrix. -/
theorem stBand0_apply (x1 : Bat) (x3 x6 : Wt) (i : S8192x1024.Idx) :
    val_main_v7 (F := Ideal) x1 x3 x6 i = GruCell.rowDot (fun k => x1 (ix2 (i 0 : Fin 8192) k)) x3 (i 1 : Fin 1024) := by
  rw [val_main_v7_apply, val_main_v6_apply]
  unfold GruCell.rowDot
  refine Finset.sum_congr rfl fun k _ => ?_
  refine congrArg₂ (· * ·) (congrArg x1 (funext fun a => Fin.ext ?_)) ?_
  · match a with
    | ⟨0, _⟩ => rfl
    | ⟨1, _⟩ => rfl
  · exact GruCell.beside2_fst _ x3 x6 _ k (i 1 : Fin 1024) rfl (Nat.zero_add _)

/-- The second band of the state-side product: the second matrix. -/
theorem stBand1_apply (x1 : Bat) (x3 x6 : Wt) (i : S8192x1024.Idx) :
    val_main_v8 (F := Ideal) x1 x3 x6 i = GruCell.rowDot (fun k => x1 (ix2 (i 0 : Fin 8192) k)) x6 (i 1 : Fin 1024) := by
  rw [val_main_v8_apply, val_main_v6_apply]
  unfold GruCell.rowDot
  refine Finset.sum_congr rfl fun k _ => ?_
  refine congrArg₂ (· * ·) (congrArg x1 (funext fun a => Fin.ext ?_)) ?_
  · match a with
    | ⟨0, _⟩ => rfl
    | ⟨1, _⟩ => rfl
  · exact GruCell.beside2_snd _ x3 x6 _ k (i 1 : Fin 1024) rfl rfl

/-! ## The gates -/

/-- The update gate, entry by entry. -/
theorem update_apply (x0 x1 : Bat) (x2 x3 : Wt) (x4 : Bias) (x5 x6 x8 : Wt) (i : S8192x1024.Idx) :
    val_main_v18 (F := Ideal) x0 x1 x2 x3 x4 x5 x6 x8 i
      = GruCell.gate (fun k => x0 (ix2 (i 0 : Fin 8192) k)) (fun k => x1 (ix2 (i 0 : Fin 8192) k)) x2 x3 x4 (i 1 : Fin 1024) := by
  rw [val_main_v18_apply, val_main_v17_apply, val_main_cst_0_apply, val_main_v16_apply, val_main_v15_apply,
    val_main_cst_apply, val_main_v14_apply, val_main_v13_apply, GruCell.logistic_expanded, val_main_v12_apply,
    val_main_v11_apply, val_main_v10_apply, val_main_v9_apply, inBand0_apply, stBand0_apply]
  have eb : idx_main_v10 (idx_main_v11 i) = ix1 (i 1 : Fin 1024) := funext fun a => by
    match a with
    | ⟨0, _⟩ => rfl
  rw [eb]
  rfl

/-- The reset gate, entry by entry. -/
theorem reset_apply (x0 x1 : Bat) (x2 x3 x5 x6 : Wt) (x7 : Bias) (x8 : Wt) (i : S8192x1024.Idx) :
    val_main_v28 (F := Ideal) x0 x1 x2 x3 x5 x6 x7 x8 i
      = GruCell.gate (fun k => x0 (ix2 (i 0 : Fin 8192) k)) (fun k => x1 (ix2 (i 0 : Fin 8192) k)) x5 x6 x7 (i 1 : Fin 1024) := by
  rw [val_main_v28_apply, val_main_v27_apply, val_main_cst_2_apply, val_main_v26_apply, val_main_v25_apply,
    val_main_cst_1_apply, val_main_v24_apply, val_main_v23_apply, GruCell.logistic_expanded, val_main_v22_apply,
    val_main_v21_apply, val_main_v20_apply, val_main_v19_apply, inBand1_apply, stBand1_apply]
  have eb : idx_main_v20 (idx_main_v21 i) = ix1 (i 1 : Fin 1024) := funext fun a => by
    match a with
    | ⟨0, _⟩ => rfl
  rw [eb]
  rfl

/-! ## The candidate and the mix -/

/-- The state read through the reset gate, times the candidate's state-side matrix: the contracted entry is the
    reset gate at `(p, k)` times the state at `(p, k)`. -/
theorem gatedState_apply (x0 x1 : Bat) (x2 x3 x5 x6 : Wt) (x7 : Bias) (x8 x9 : Wt) (i : S8192x1024.Idx) :
    val_main_v30 (F := Ideal) x0 x1 x2 x3 x5 x6 x7 x8 x9 i
      = GruCell.rowDot (fun k => GruCell.gate (fun k' => x0 (ix2 (i 0 : Fin 8192) k')) (fun k' => x1 (ix2 (i 0 : Fin 8192) k')) x5 x6 x7 k
          * x1 (ix2 (i 0 : Fin 8192) k)) x9 (i 1 : Fin 1024) := by
  rw [val_main_v30_apply]
  unfold GruCell.rowDot
  refine Finset.sum_congr rfl fun k _ => ?_
  have el : lidx_main_v30 i k = ix2 (i 0 : Fin 8192) k := funext fun a => Fin.ext (by
    match a with
    | ⟨0, _⟩ => rfl
    | ⟨1, _⟩ => rfl)
  have er : ridx_main_v30 i k = ix2 k (i 1 : Fin 1024) := funext fun a => Fin.ext (by
    match a with
    | ⟨0, _⟩ => rfl
    | ⟨1, _⟩ => rfl)
  rw [val_main_v29_apply, reset_apply, el, er]
  rfl

/-- The candidate, entry by entry. -/
theorem candidate_apply (x0 x1 : Bat) (x2 x3 x5 x6 : Wt) (x7 : Bias) (x8 x9 : Wt) (x10 : Bias) (i : S8192x1024.Idx) :
    val_main_v40 (F := Ideal) x0 x1 x2 x3 x5 x6 x7 x8 x9 x10 i
      = Ideal.logistic (GruCell.rowDot (fun k => x0 (ix2 (i 0 : Fin 8192) k)) x8 (i 1 : Fin 1024)
          + GruCell.rowDot (fun k => GruCell.gate (fun k' => x0 (ix2 (i 0 : Fin 8192) k')) (fun k' => x1 (ix2 (i 0 : Fin 8192) k')) x5 x6 x7 k
              * x1 (ix2 (i 0 : Fin 8192) k)) x9 (i 1 : Fin 1024)
          + x10 (ix1 (i 1 : Fin 1024))) := by
  rw [val_main_v40_apply, val_main_v39_apply, val_main_cst_4_apply, val_main_v38_apply, val_main_v37_apply,
    val_main_cst_3_apply, val_main_v36_apply, val_main_v35_apply, GruCell.logistic_expanded, val_main_v34_apply,
    val_main_v33_apply, val_main_v32_apply, val_main_v31_apply, inBand2_apply, gatedState_apply]
  have eb : idx_main_v32 (idx_main_v33 i) = ix1 (i 1 : Fin 1024) := funext fun a => by
    match a with
    | ⟨0, _⟩ => rfl
  rw [eb]
  rfl

/-- The reference's last stage is the cell applied to every row of the batch. -/
theorem result_apply (x0 x1 : Bat) (x2 x3 : Wt) (x4 : Bias) (x5 x6 : Wt) (x7 : Bias) (x8 x9 : Wt) (x10 : Bias) (i : S8192x1024.Idx) :
    val_main_v45 (F := Ideal) x0 x1 x2 x3 x4 x5 x6 x7 x8 x9 x10 i = GruCell.batch x0 x1 x2 x3 x4 x5 x6 x7 x8 x9 x10 i := by
  rw [val_main_v45_apply, val_main_v43_apply, val_main_v42_apply, val_main_v41_apply, val_main_cst_5_apply,
    val_main_v44_apply, update_apply, candidate_apply, Ideal.ofBits_def, Ideal.ofBits_one_f32]
  have ei : x1 i = x1 (ix2 (i 0 : Fin 8192) (i 1 : Fin 1024)) := congrArg x1 (eq_ix2 i)
  rw [ei]
  rfl

/-- The term the reference's run ends at is the cell applied to every row of the batch of its arguments. -/
theorem result_eq (m : (ℓ : Loc nD τ sig) → Buf (Elt Ideal) ℓ) (c : Dev nD) :
    Cert.ReferenceIdeal.Value.res_main_v45 (F := Ideal) m c
      = GruCell.batch (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  rw [val_main_v45_eq]
  funext i
  exact result_apply _ _ _ _ _ _ _ _ _ _ _ i

end Cert.ReferenceIdeal.Rows

end
-- ==== Proof.lean ====
/-
  A gated recurrent cell over a batch of 8192 rows: the kernel against its reference, over the extended reals.

  Both programs compute, for every row `p` of the batch and every column `q`,

    z = σ (x_p · Wiz[:, q] + h_p · Uhz[:, q] + bz q),   r = σ (x_p · Wir[:, ·] + h_p · Uhr[:, ·] + br ·),
    n = σ (x_p · Win[:, q] + (r ∗ h_p) · Uhn[:, q] + bn q),   out (p, q) = (1 - z) * h (p, q) + z * n,

  with `σ` the logistic function (Proof/GruCell.lean states this as ONE function `GruCell.batch` of the eleven argument
  arrays). The kernel works on 32 blocks of 256 rows with six separate matrix products per block, its operands passed
  through a narrower float format, which is the identity on extended reals (Proof/KernelRows.lean); the reference
  multiplies once by the input-side matrices set side by side and once by two state-side matrices set side by side and
  cuts the products into bands, and spells `σ` as `1 / (1 + exp (-t))` (Proof/ReferenceRows.lean). Each side is shown to
  be `GruCell.batch` of its arguments by re-indexing alone: no sum is regrouped, so the precondition's finiteness is
  never used. The idealization rewrote no operation, so the kernel is its own idealization.
-/
import proofs.«138151_j10952166604829_1_alg».proof.Defs
import proofs.«138151_j10952166604829_1_alg».proof.Proof.Gen.Kernel
import proofs.«138151_j10952166604829_1_alg».proof.Proof.Gen.Kernel.Skeleton
import proofs.«138151_j10952166604829_1_alg».proof.Proof.Gen.Kernel.Launch
import proofs.«138151_j10952166604829_1_alg».proof.Proof.Gen.Kernel.Points
import proofs.«138151_j10952166604829_1_alg».proof.Proof.Gen.Kernel.Frame
import proofs.«138151_j10952166604829_1_alg».proof.Proof.Gen.KernelIdeal
import proofs.«138151_j10952166604829_1_alg».proof.Proof.Gen.KernelIdeal.Skeleton
import proofs.«138151_j10952166604829_1_alg».proof.Proof.Gen.KernelIdeal.Launch
import proofs.«138151_j10952166604829_1_alg».proof.Proof.Gen.KernelIdeal.Points
import proofs.«138151_j10952166604829_1_alg».proof.Proof.Gen.KernelIdeal.Frame
import proofs.«138151_j10952166604829_1_alg».proof.Proof.Gen.ReferenceIdeal
import proofs.«138151_j10952166604829_1_alg».proof.Proof.Gen.Pre_finite_inputs
import proofs.«138151_j10952166604829_1_alg».proof.Proof.Gen.KernelIdeal.Value
import proofs.«138151_j10952166604829_1_alg».proof.Proof.Gen.ReferenceIdeal.Run
import proofs.«138151_j10952166604829_1_alg».proof.Proof.Gen.ReferenceIdeal.Read
import proofs.«138151_j10952166604829_1_alg».proof.Proof.KernelRows
import proofs.«138151_j10952166604829_1_alg».proof.Proof.ReferenceRows
import Idealize.ShloMosaic.Adequacy
import Idealize.ShloMosaic.Init

noncomputable section

namespace Cert.Proof

open Idealize.ShloMosaic Idealize.SL.Sem

/-- Every execution of the kernel, at the word-level instance, terminates without a fault and leaves its arguments
    as they were. -/
theorem frame_kernel : Cert.frame_Kernel := fun m ρ _ => Cert.Kernel.Gen.frame m ρ

/-- The same of the kernel read at the extended reals. -/
theorem frame_kernelIdeal : Cert.frame_KernelIdeal := fun m ρ _ => Cert.KernelIdeal.Gen.frame m ρ

/-- The same of the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the eleven arguments, the kernel's result array and the reference's both end holding the
    cell applied to every row of the batch: the kernel's by its blocks, the reference's by its bands. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Rows.result_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
